-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S100000x128 : Shape := ⟨2, ![100000, 128]⟩
abbrev S100000x1 : Shape := ⟨2, ![100000, 1]⟩
abbrev S128x132 : Shape := ⟨2, ![128, 132]⟩
abbrev S128 : Shape := ⟨1, ![128]⟩
abbrev S128x128 : Shape := ⟨2, ![128, 128]⟩
abbrev S3x128 : Shape := ⟨2, ![3, 128]⟩
abbrev S3 : Shape := ⟨1, ![3]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000x1 : S_.BroadcastsInDim S100000x1 (![] : Fin 0 → Fin S100000x1.rank)
  reducesTo_S100000x1_S_d0_1 : S100000x1.ReducesTo [0, 1] S_
  bcast_S_S128x132 : S_.BroadcastsInDim S128x132 (![] : Fin 0 → Fin S128x132.rank)
  reducesTo_S128x132_S_d0_1 : S128x132.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3x128 .f32) (main_arg8 : FVec F S3 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3 .f32 := Host.absf main_arg8
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S128 .f32) (main_arg7 : FVec F S3x128 .f32) (main_arg8 : FVec F S3 .f32) (main_v13 : IVec S_ 1) (main_v16 : IVec S128x132 1) : IVec S_ 1 :=
  let main_c_5 : IVec S_ 1 := constantI S_ 1 1#1
  let main_v17 : IVec S_ 1 := (fun x v => Host.reduce IntOp.andi x v reducesTo_S128x132_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S100000x3 .f32) (main_arg1 : FVec F S100000x128 .f32) (main_arg2 : FVec F S100000x1 .f32) (main_arg3 : FVec F S128x132 .f32) (main_arg4 : FVec F S128 .f32) (main_arg5 : FVec F S128x128 .f32) (main_arg6 : FVec F S128 .f32) (main_arg7 : FVec F S3x128 .f32) (main_arg8 : FVec F S3 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x132 .f32 := Host.absf main_arg3
  let main_cst_4 : FVec F S_ .f32 := constant S_ .f32 0x7F800000#32
  let main_v15 : FVec F S128x132 .f32 := broadcastInDim S128x132 ![] bcast_S_S128x132 main_cst_4
  let main_v16 : IVec S128x132 1 := cmpf .olt main_v14 main_v15
  fn_part1 (F := F) main_arg4 main_arg5 main_arg6 main_arg7 main_arg8 main_v13 main_v16
-- ==== Kernel.lean ====
abbrev S100000x3 : Shape := ⟨2, ![100000, 3]⟩
abbrev S100000x128 : Shape := ⟨2, ![100000, 128]⟩
abbrev S100000x1 : Shape := ⟨2, ![100000, 1]⟩
abbrev S128x132 : Shape := ⟨2, ![128, 132]⟩
abbrev S128 : Shape := ⟨1, ![128]⟩
abbrev S128x128 : Shape := ⟨2, ![128, 128]⟩
abbrev S3x128 : Shape := ⟨2, ![3, 128]⟩
abbrev S3 : Shape := ⟨1, ![3]⟩
abbrev S128x3 : Shape := ⟨2, ![128, 3]⟩
abbrev S128x1 : Shape := ⟨2, ![128, 1]⟩
abbrev S1x128 : Shape := ⟨2, ![1, 128]⟩
abbrev S1x3 : Shape := ⟨2, ![1, 3]⟩
abbrev S4000x3 : Shape := ⟨2, ![4000, 3]⟩
abbrev S4000x128 : Shape := ⟨2, ![4000, 128]⟩
abbrev S4000x1 : Shape := ⟨2, ![4000, 1]⟩

abbrev nBuf : Space → Nat
  | .hbm => 21
  | .vmem => 16
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S100000x1, .f32⟩
  | .hbm, ⟨3, _⟩ => ⟨S128x132, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S128x3, .f32⟩
  | .hbm, ⟨10, _⟩ => ⟨S3x128, .f32⟩
  | .hbm, ⟨11, _⟩ => ⟨S128x128, .f32⟩
  | .hbm, ⟨12, _⟩ => ⟨S128x128, .f32⟩
  | .hbm, ⟨13, _⟩ => ⟨S128x1, .f32⟩
  | .hbm, ⟨14, _⟩ => ⟨S1x128, .f32⟩
  | .hbm, ⟨15, _⟩ => ⟨S128x128, .f32⟩
  | .hbm, ⟨16, _⟩ => ⟨S128x3, .f32⟩
  | .hbm, ⟨17, _⟩ => ⟨S1x128, .f32⟩
  | .hbm, ⟨18, _⟩ => ⟨S1x128, .f32⟩
  | .hbm, ⟨19, _⟩ => ⟨S1x3, .f32⟩
  | .hbm, ⟨20, _⟩ => ⟨S100000x3, .f32⟩
  | .local _ .vmem, ⟨0, _⟩ => ⟨S4000x3, .f32⟩
  | .local _ .vmem, ⟨1, _⟩ => ⟨S4000x3, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S3x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x3, .f32⟩
  | .local _ .vmem, ⟨13, _⟩ => ⟨S1x3, .f32⟩
  | .local _ .vmem, ⟨14, _⟩ => ⟨S4000x3, .f32⟩
  | .local _ .vmem, ⟨15, _⟩ => ⟨S4000x3, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S128x132_S128x3_0_0 : S128x132.Slices ![0, 0] S128x3
  transposes_S128x3_S3x128_1_0 : S128x3.Transposes [1, 0] S3x128
  slices_S128x132_S128x128_0_3 : S128x132.Slices ![0, 3] S128x128
  transposes_S128x128_S128x128_1_0 : S128x128.Transposes [1, 0] S128x128
  slices_S128x132_S128x1_0_131 : S128x132.Slices ![0, 131] S128x1
  transposes_S128x1_S1x128_1_0 : S128x1.Transposes [1, 0] S1x128
  transposes_S3x128_S128x3_1_0 : S3x128.Transposes [1, 0] S128x3
  shapeCasts_S128_S1x128 : S128.ShapeCasts S1x128
  shapeCasts_S3_S1x3 : S3.ShapeCasts S1x3
  inb_S4000x128_S4000x128_0_0 : ∀ a, (![0, 0] : Fin 2 → Nat) a + S4000x128.size a ≤ S4000x128.size a
  h_S4000x128 : 0 < S4000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x3_S4000x3_0_0 : ∀ a, (![0, 0] : Fin 2 → Nat) a + S4000x3.size a ≤ S4000x3.size a
  h_S4000x3 : 0 < S4000x3.numel
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S4000x1_S4000x1_0_0 : ∀ a, (![0, 0] : Fin 2 → Nat) a + S4000x1.size a ≤ S4000x1.size a
  h_S4000x1 : 0 < S4000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S4000x1_S4000x128 : S4000x1.Broadcasts S4000x128
  broadcasts_S1x128_S4000x128 : S1x128.Broadcasts S4000x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  dot_S4000x128_S128x128_S4000x128_1_0_0_1_n_n_wf : DotDims.WF S4000x128 S128x128 S4000x128 [1] [0] [0] [1] [] []
  dot_S4000x3_S3x128_S4000x128_1_0_0_1_n_n_wf : DotDims.WF S4000x3 S3x128 S4000x128 [1] [0] [0] [1] [] []
  dot_S4000x128_S128x3_S4000x3_1_0_0_1_n_n_wf : DotDims.WF S4000x128 S128x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x3.size a ≤ S128x3.size a
  hwx0_9 : ∀ i : grid0.Coords, EltTy.bits .f32 = 32 ∨ (Rect.block (s := S128x3) S128x3.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3.size a ≤ S1x3.size a
  hwx0_10 : ∀ i : grid0.Coords, EltTy.bits .f32 = 32 ∨ (Rect.block (s := S1x3) S1x3.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x3.size a ≤ S100000x3.size a
  hwx0_11 : ∀ i : grid0.Coords, EltTy.bits .f32 = 32 ∨ (Rect.block (s := S100000x3) S4000x3.size (cc0_transform_11 i) (hinb0_11 i)).WholeWords (EltTy.packing .f32)

variable [Facts₀]

def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def dot_S4000x128_S128x3_S4000x3_1_0_0_1_n_n : DotDims S4000x128 S128x3 S4000x3 where
  lhsContracting := [1]
  rhsContracting := [0]
  lhsNonContracting := [0]
  rhsNonContracting := [1]
  lhsBatch := []
  rhsBatch := []
  wf := dot_S4000x128_S128x3_S4000x3_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v7) S128x3.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_call0_v10) S1x3.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v0) S4000x3.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x3 : Shape := ⟨2, ![100000, 3]⟩
abbrev S100000x128 : Shape := ⟨2, ![100000, 128]⟩
abbrev S100000x1 : Shape := ⟨2, ![100000, 1]⟩
abbrev S128x132 : Shape := ⟨2, ![128, 132]⟩
abbrev S128 : Shape := ⟨1, ![128]⟩
abbrev S128x128 : Shape := ⟨2, ![128, 128]⟩
abbrev S3x128 : Shape := ⟨2, ![3, 128]⟩
abbrev S3 : Shape := ⟨1, ![3]⟩
abbrev S100000x132 : Shape := ⟨2, ![100000, 132]⟩
abbrev S132x128 : Shape := ⟨2, ![132, 128]⟩
abbrev S1x128 : Shape := ⟨2, ![1, 128]⟩
abbrev S_ : Shape := ⟨0, ![]⟩
abbrev S128x3 : Shape := ⟨2, ![128, 3]⟩
abbrev S1x3 : Shape := ⟨2, ![1, 3]⟩

abbrev nBuf : Space → Nat
  | .hbm => 43
  | .vmem => 0
  | .smem => 0
  | _ => 0

abbrev bufTy : (tb : Table) → Fin (tcTables nBuf tb) → BufTy
  | .hbm, ⟨0, _⟩ => ⟨S100000x3, .f32⟩
  | .hbm, ⟨1, _⟩ => ⟨S100000x128, .f32⟩
  | .hbm, ⟨2, _⟩ => ⟨S100000x1, .f32⟩
  | .hbm, ⟨3, _⟩ => ⟨S128x132, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S100000x132, .f32⟩
  | .hbm, ⟨10, _⟩ => ⟨S132x128, .f32⟩
  | .hbm, ⟨11, _⟩ => ⟨S100000x128, .f32⟩
  | .hbm, ⟨12, _⟩ => ⟨S1x128, .f32⟩
  | .hbm, ⟨13, _⟩ => ⟨S100000x128, .f32⟩
  | .hbm, ⟨14, _⟩ => ⟨S100000x128, .f32⟩
  | .hbm, ⟨15, _⟩ => ⟨S100000x128, .f32⟩
  | .hbm, ⟨16, _⟩ => ⟨S100000x128, .f32⟩
  | .hbm, ⟨17, _⟩ => ⟨S_, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S128x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S128x3, .f32⟩
  | .hbm, ⟨39, _⟩ => ⟨S100000x3, .f32⟩
  | .hbm, ⟨40, _⟩ => ⟨S1x3, .f32⟩
  | .hbm, ⟨41, _⟩ => ⟨S100000x3, .f32⟩
  | .hbm, ⟨42, _⟩ => ⟨S100000x3, .f32⟩
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩

abbrev nD : Nat := 1
abbrev τ : Topo := Topo.v7x

variable {F : FTy → Type} [FloatOps F]

class Facts₀ : Prop where
  concatenates_S100000x3_S100000x128_S100000x1_S100000x132_d1 : Shape.Concatenates [S100000x3, S100000x128, S100000x1] S100000x132 1
  transposes_S128x132_S132x128_1_0 : S128x132.Transposes [1, 0] S132x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  transposes_S3x128_S128x3_1_0 : S3x128.Transposes [1, 0] S128x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  dot_S100000x132_S132x128_S100000x128_1_0_0_1_n_n_wf : DotDims.WF S100000x132 S132x128 S100000x128 [1] [0] [0] [1] [] []
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def dot_S100000x132_S132x128_S100000x128_1_0_0_1_n_n : DotDims S100000x132 S132x128 S100000x128 where
  lhsContracting := [1]
  rhsContracting := [0]
  lhsNonContracting := [0]
  rhsNonContracting := [1]
  lhsBatch := []
  rhsBatch := []
  wf := dot_S100000x132_S132x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.RowNet.lean ====
/-
  The mathematics of the certificate, over plain arrays of extended reals.

  The network computes, row by row of the batch,
      y = W3 · silu (W2 · silu (W1 · [c, f, t] + b1) + b2) + b3,          silu x = x · (1 / (1 + e^(-x))),
  where [c, f, t] is the row of length 3 + 128 + 1 joined from the three inputs.  The first layer can be
  summed in one go over the 132 joined columns, or as three partial sums over the columns of f, of c and
  of t; the two agree because addition of extended reals is commutative and associative (no finiteness is
  needed: nothing is distributed or cancelled).
-/
import Idealize.ShloMosaic.PureOps.Ideal
import Idealize.ShloMosaic.Lib.ValueIdx
import Mathlib.Algebra.BigOperators.Fin

noncomputable section

namespace Cert.RowNet

open Idealize.ShloMosaic Idealize.ShloMosaic.ValueIdx

/-- A rank-2 array of extended reals of literal extents. -/
abbrev Arr2 (n0 n1 : Nat) : Type := (⟨2, ![n0, n1]⟩ : Shape).Idx → EReal
/-- A rank-1 array of extended reals of literal extent. -/
abbrev Arr1 (n : Nat) : Type := (⟨1, ![n]⟩ : Shape).Idx → EReal

/-- The word 0x3F800000 is the number one. -/
theorem one_word : Ideal.ofBits .f32 0x3F800000#32 = 1 := by
  simp [Ideal.ofBits, Ideal.ieee, -EReal.coe_mul]; norm_num

/-- The activation: x times the logistic function of x. -/
def silu (x : EReal) : EReal := x * Ideal.logistic x

/-- The activation spelt with a quotient, 1 / (1 + e^(-x)), the ones given as words. -/
theorem silu_quotient (x : EReal) :
    x * Ideal.div (Ideal.ofBits .f32 0x3F800000#32) (Ideal.ofBits .f32 0x3F800000#32 + Ideal.exp (-x)) = silu x := by
  rw [one_word]; rfl

/-- A sum over 132 = 3 + 128 + 1 columns, taken as the middle 128, then the first 3, then the last one. -/
theorem sum_132_split (g : Fin 132 → EReal) :
    ∑ k : Fin 132, g k
      = (∑ k : Fin 128, g ⟨3 + k.val, by omega⟩) + (∑ k : Fin 3, g ⟨k.val, by omega⟩) + g ⟨131, by omega⟩ := by
  show ∑ k : Fin (3 + 128 + 1), g k = _
  rw [Fin.sum_univ_castSucc, Fin.sum_univ_add, add_comm (∑ k : Fin 3, _)]
  rfl

/-! ## One row of the batch -/

/-- The first layer before its activation, for one row: the row of f against its 128 weight rows, the row
    of c against its 3, the entry of t against its one, and the bias. -/
def rowPre1 (fr : Fin 128 → EReal) (cr : Fin 3 → EReal) (tr : EReal) (wf : Fin 128 → Fin 128 → EReal)
    (wc : Fin 3 → Fin 128 → EReal) (wt : Fin 128 → EReal) (b1 : Fin 128 → EReal) (j : Fin 128) : EReal :=
  (∑ k : Fin 128, fr k * wf k j) + (∑ k : Fin 3, cr k * wc k j) + tr * wt j + b1 j

/-- A later layer before its activation (or the output): the activated previous layer against the weights,
    and the bias. -/
def rowNext {n : Nat} (h : Fin 128 → EReal) (w : Fin 128 → Fin n → EReal) (b : Fin n → EReal) (j : Fin n) : EReal :=
  (∑ k : Fin 128, silu (h k) * w k j) + b j

/-- The row functions depend only on the row's entries and the weights' entries. -/
theorem rowNet_congr {fr fr' : Fin 128 → EReal} {cr cr' : Fin 3 → EReal} {tr tr' : EReal}
    {wf wf' : Fin 128 → Fin 128 → EReal} {wc wc' : Fin 3 → Fin 128 → EReal} {wt wt' b1 b1' : Fin 128 → EReal}
    {w2 w2' : Fin 128 → Fin 128 → EReal} {b2 b2' : Fin 128 → EReal} {w3 w3' : Fin 128 → Fin 3 → EReal}
    {b3 b3' : Fin 3 → EReal}
    (hf : fr = fr') (hc : cr = cr') (ht : tr = tr') (hwf : wf = wf') (hwc : wc = wc') (hwt : wt = wt') (hb1 : b1 = b1')
    (hw2 : w2 = w2') (hb2 : b2 = b2') (hw3 : w3 = w3') (hb3 : b3 = b3') (q : Fin 3) :
    rowNext (rowNext (rowPre1 fr cr tr wf wc wt b1) w2 b2) w3 b3 q
      = rowNext (rowNext (rowPre1 fr' cr' tr' wf' wc' wt' b1') w2' b2') w3' b3' q := by
  subst hf hc ht hwf hwc hwt hb1 hw2 hb2 hw3 hb3
  rfl

/-! ## The whole arrays -/

variable (c : Arr2 100000 3) (f : Arr2 100000 128) (t : Arr2 100000 1)
  (W1 : Arr2 128 132) (b1 : Arr1 128) (W2 : Arr2 128 128) (b2 : Arr1 128) (W3 : Arr2 3 128) (b3 : Arr1 3)

/-- The first layer before its activation, at batch row r and unit j. The weight of unit j on column k of f
    is W1[j, 3 + k], on column k of c it is W1[j, k], on t it is W1[j, 131]. -/
def pre1 (r : Fin 100000) (j : Fin 128) : EReal :=
  rowPre1 (fun k => f (ix2 r k)) (fun k => c (ix2 r k)) (t (ix2 r 0))
    (fun k j => W1 (ix2 j ⟨3 + k.val, by omega⟩)) (fun k j => W1 (ix2 j ⟨k.val, by omega⟩))
    (fun j => W1 (ix2 j ⟨131, by omega⟩)) (fun j => b1 (ix1 j)) j

/-- The second layer before its activation. -/
def pre2 (r : Fin 100000) (j : Fin 128) : EReal :=
  rowNext (pre1 c f t W1 b1 r) (fun k j => W2 (ix2 j k)) (fun j => b2 (ix1 j)) j

/-- The network's output at batch row r and component q. -/
def out (r : Fin 100000) (q : Fin 3) : EReal :=
  rowNext (pre2 c f t W1 b1 W2 b2 r) (fun k q => W3 (ix2 q k)) (fun q => b3 (ix1 q)) q

/-- The whole result array as one function of the nine argument arrays. -/
def net : Arr2 100000 3 := fun i => out c f t W1 b1 W2 b2 W3 b3 (i 0) (i 1)

/-- The network at (r, q), spelt out as the row functions of row r. -/
theorem net_at (r : Fin 100000) (q : Fin 3) :
    net c f t W1 b1 W2 b2 W3 b3 (ix2 r q)
      = rowNext
          (rowNext
            (rowPre1 (fun k => f (ix2 r k)) (fun k => c (ix2 r k)) (t (ix2 r 0))
              (fun k j => W1 (ix2 j ⟨3 + k.val, by omega⟩)) (fun k j => W1 (ix2 j ⟨k.val, by omega⟩))
              (fun j => W1 (ix2 j ⟨131, by omega⟩)) (fun j => b1 (ix1 j)))
            (fun k j => W2 (ix2 j k)) (fun j => b2 (ix1 j)))
          (fun k q => W3 (ix2 q k)) (fun q => b3 (ix1 q)) q := rfl

/-- The joined row [c, f, t] at column k. -/
def joined (r : Fin 100000) (k : Fin 132) : EReal :=
  if h : k.val < 3 then c (ix2 r ⟨k.val, h⟩)
  else if h' : k.val < 131 then f (ix2 r ⟨k.val - 3, by omega⟩)
  else t (ix2 r 0)

/-- The first layer summed in one go over the joined row is the three partial sums. -/
theorem pre1_joined (r : Fin 100000) (j : Fin 128) :
    (∑ k : Fin 132, joined c f t r k * W1 (ix2 j k)) + b1 (ix1 j) = pre1 c f t W1 b1 r j := by
  have e1 : ∀ k : Fin 128, joined c f t r ⟨3 + k.val, by omega⟩ = f (ix2 r k) := fun k => by
    have hk := k.isLt
    unfold joined
    rw [dif_neg (by show ¬ (3 + k.val < 3); omega), dif_pos (by show 3 + k.val < 131; omega)]
    exact congrArg f (congrArg (ix2 r) (Fin.ext (by show 3 + k.val - 3 = k.val; omega)))
  have e2 : ∀ k : Fin 3, joined c f t r ⟨k.val, by omega⟩ = c (ix2 r k) := fun k => by
    unfold joined
    rw [dif_pos (by show k.val < 3; exact k.isLt)]
  have e3 : joined c f t r ⟨131, by omega⟩ = t (ix2 r 0) := by
    unfold joined
    rw [dif_neg (by show ¬ (131 < 3); omega), dif_neg (by show ¬ (131 < 131); omega)]
  rw [sum_132_split]
  simp only [e1, e2, e3]
  rfl

end Cert.RowNet

end
-- ==== Proof.RefIsNet.lean ====
/-
  The reference computes the network.

  Read one operation at a time at a batch row r: the joined row [c, f, t] against the transposed first
  weight matrix is the sum over the 132 joined columns, which is the three partial sums of the first layer;
  the library's expansion of the activation, x · (1 / (1 + e^(-x))), is silu; the second and third layers are
  sums over the 128 hidden units against the transposed weights, plus the broadcast biases.
-/
import proofs.«173107_g63050119905556_cont_9to1c4b_27_3_alg».proof.Proof.Gen.ReferenceIdeal.Read
import proofs.«173107_g63050119905556_cont_9to1c4b_27_3_alg».proof.Proof.RowNet

noncomputable section

namespace Cert.ReferenceIdeal.RefValue

open Cert.ReferenceIdeal Cert.ReferenceIdeal.Gen Cert.ReferenceIdeal.Read Cert.RowNet
open Idealize.ShloMosaic Idealize.ShloMosaic.ValueIdx

variable (x0 : Arr2 100000 3) (x1 : Arr2 100000 128) (x2 : Arr2 100000 1) (x3 : Arr2 128 132) (x4 : Arr1 128)
  (x5 : Arr2 128 128) (x6 : Arr1 128) (x7 : Arr2 3 128) (x8 : Arr1 3)

/-- The concatenation along the columns, read at (r, k): column k of c for k < 3, column k - 3 of f for
    3 ≤ k < 131, the one column of t at k = 131. -/
theorem joined_read (r : Fin 100000) (k : Fin 132) :
    val_main_v0 (F := Ideal) x0 x1 x2 (ix2 r k) = joined x0 x1 x2 r k := by
  have hk := k.isLt
  unfold val_main_v0 joined
  by_cases h3 : k.val < 3
  · rw [dif_pos h3]
    exact concatenate_apply_piece (1 : Fin 2) _ _ (ix2 r k) 0 (by show (0 : Nat) < 3; omega) S100000x3 x0 rfl rfl 0 rfl (ix2 r ⟨k.val, h3⟩)
      (fun b hb => match b, hb with
        | ⟨0, _⟩, _ => rfl
        | ⟨1, _⟩, hb => absurd rfl hb)
      (by show 0 + k.val = k.val; omega)
  · rw [dif_neg h3]
    by_cases h131 : k.val < 131
    · rw [dif_pos h131]
      exact concatenate_apply_piece (1 : Fin 2) _ _ (ix2 r k) 1 (by show (1 : Nat) < 3; omega) S100000x128 x1 rfl rfl 3 rfl
        (ix2 r ⟨k.val - 3, by omega⟩)
        (fun b hb => match b, hb with
          | ⟨0, _⟩, _ => rfl
          | ⟨1, _⟩, hb => absurd rfl hb)
        (by show 3 + (k.val - 3) = k.val; omega)
    · rw [dif_neg h131]
      exact concatenate_apply_piece (1 : Fin 2) _ _ (ix2 r k) 2 (by show (2 : Nat) < 3; omega) S100000x1 x2 rfl rfl 131 rfl
        (ix2 r 0)
        (fun b hb => match b, hb with
          | ⟨0, _⟩, _ => rfl
          | ⟨1, _⟩, hb => absurd rfl hb)
        (by show 131 + 0 = k.val; omega)

/-- The first layer before its activation. -/
theorem first_layer (r : Fin 100000) (j : Fin 128) :
    val_main_v5 (F := Ideal) x0 x1 x2 x3 x4 (ix2 r j) = pre1 x0 x1 x2 x3 x4 r j := by
  rw [val_main_v5_apply, val_main_v2_apply, val_main_v4_apply, val_main_v3_apply, ← pre1_joined]
  refine congrArg₂ (fun a b : EReal => a + b) (Finset.sum_congr rfl fun k _ => ?_)
    (congrArg x4 (funext fun a => by match a with | ⟨0, _⟩ => rfl))
  rw [val_main_v1_apply, ← joined_read]
  have e1 : lidx_main_v2 (ix2 r j) k = ix2 r k := funext fun a => by
    match a with
    | ⟨0, _⟩ => rfl
    | ⟨1, _⟩ => rfl
  have e2 : idx_main_v1 (ridx_main_v2 (ix2 r j) k) = ix2 j k := funext fun a => by
    match a with
    | ⟨0, _⟩ => rfl
    | ⟨1, _⟩ => rfl
  rw [e1, e2]

/-- The first layer, activated. -/
theorem first_act (r : Fin 100000) (j : Fin 128) :
    val_main_v6 (F := Ideal) x0 x1 x2 x3 x4 (ix2 r j) = silu (pre1 x0 x1 x2 x3 x4 r j) := by
  rw [val_main_v6_apply, val_main_call0_v5_apply, val_main_call0_v4_apply, val_main_call0_cst_0_apply,
    val_main_call0_v3_apply, val_main_call0_v2_apply, val_main_call0_cst_apply, val_main_call0_v1_apply,
    val_main_call0_v0_apply, first_layer]
  exact silu_quotient _

/-- The second layer before its activation. -/
theorem second_layer (r : Fin 100000) (j : Fin 128) :
    val_main_v11 (F := Ideal) x0 x1 x2 x3 x4 x5 x6 (ix2 r j) = pre2 x0 x1 x2 x3 x4 x5 x6 r j := by
  rw [val_main_v11_apply, val_main_v8_apply, val_main_v10_apply, val_main_v9_apply]
  refine congrArg₂ (fun a b : EReal => a + b) (Finset.sum_congr rfl fun k _ => ?_)
    (congrArg x6 (funext fun a => by match a with | ⟨0, _⟩ => rfl))
  rw [val_main_v7_apply]
  have e1 : lidx_main_v8 (ix2 r j) k = ix2 r k := funext fun a => by
    match a with
    | ⟨0, _⟩ => rfl
    | ⟨1, _⟩ => rfl
  have e2 : idx_main_v7 (ridx_main_v8 (ix2 r j) k) = ix2 j k := funext fun a => by
    match a with
    | ⟨0, _⟩ => rfl
    | ⟨1, _⟩ => rfl
  rw [e1, e2, first_act]

/-- The second layer, activated. -/
theorem second_act (r : Fin 100000) (j : Fin 128) :
    val_main_v12 (F := Ideal) x0 x1 x2 x3 x4 x5 x6 (ix2 r j) = silu (pre2 x0 x1 x2 x3 x4 x5 x6 r j) := by
  rw [val_main_v12_apply, val_main_call1_v5_apply, val_main_call1_v4_apply, val_main_call1_cst_0_apply,
    val_main_call1_v3_apply, val_main_call1_v2_apply, val_main_call1_cst_apply, val_main_call1_v1_apply,
    val_main_call1_v0_apply, second_layer]
  exact silu_quotient _

/-- The reference's result is the network, index by index. -/
theorem ref_is_net :
    val_main_v17 (F := Ideal) x0 x1 x2 x3 x4 x5 x6 x7 x8 = net x0 x1 x2 x3 x4 x5 x6 x7 x8 := by
  funext i
  obtain ⟨r, q, rfl⟩ : ∃ (r : Fin 100000) (q : Fin 3), i = ix2 r q := ⟨i 0, i 1, eq_ix2 i⟩
  rw [val_main_v17_apply, val_main_v14_apply, val_main_v16_apply, val_main_v15_apply]
  refine congrArg₂ (fun a b : EReal => a + b) (Finset.sum_congr rfl fun k _ => ?_)
    (congrArg x8 (funext fun a => by match a with | ⟨0, _⟩ => rfl))
  rw [val_main_v13_apply]
  have e1 : lidx_main_v14 (ix2 r q) k = ix2 r k := funext fun a => by
    match a with
    | ⟨0, _⟩ => rfl
    | ⟨1, _⟩ => rfl
  have e2 : idx_main_v13 (ridx_main_v14 (ix2 r q) k) = ix2 q k := funext fun a => by
    match a with
    | ⟨0, _⟩ => rfl
    | ⟨1, _⟩ => rfl
  rw [e1, e2, second_act]

end Cert.ReferenceIdeal.RefValue

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.KernelRow.lean ====
/-
  One row of one block, as the kernel body computes it.

  The body works on a block of 4000 batch rows.  Its three matrix products into zero accumulators are plain
  sums over the contracted axis; the column of t is spread along the 128 units and the rows of weights and
  biases along the 4000 batch rows; tpu.logistic is the logistic function.  So the entry (p, q) of what the body
  stores is the network's row function of row p of the three input blocks and of the weight blocks as the
  body is handed them (already transposed and split by the host).
-/
import proofs.«173107_g63050119905556_cont_9to1c4b_27_3_alg».proof.Proof.Gen.KernelIdeal.Value
import proofs.«173107_g63050119905556_cont_9to1c4b_27_3_alg».proof.Proof.RowNet
import proofs.«173107_g63050119905556_cont_9to1c4b_27_3_alg».proof.Proof.LibRealFactor
import Idealize.ShloMosaic.Lib.Pipeline.Value
import Idealize.ShloMosaic.Lib.ValueIdx

noncomputable section

namespace Cert.KernelIdeal.RowValue

open Cert.KernelIdeal Cert.KernelIdeal.Gen Cert.RowNet
open Idealize.ShloMosaic Idealize.ShloMosaic.ValueIdx

/-! ## The broadcasts, read at an entry -/

/-- A column [4000, 1] spread along 128 units: entry (p, j) is the column's entry p. -/
theorem spread_col (x : FVec Ideal S4000x1 .f32) (p : Fin 4000) (j : Fin 128) :
    broadcastTo S4000x128 x broadcasts_S4000x1_S4000x128 (ix2 p j) = x (ix2 p 0) :=
  broadcastTo_apply x broadcasts_S4000x1_S4000x128 (ix2 p j) (ix2 p 0) (fun a => match a with
    | ⟨0, _⟩ => by show p.val = (if (4000 : Nat) = 1 then 0 else p.val); rw [if_neg (by decide)]
    | ⟨1, _⟩ => by show 0 = (if (1 : Nat) = 1 then 0 else j.val); rw [if_pos rfl])

/-- A row [1, 128] spread along 4000 batch rows: entry (p, j) is the row's entry j. -/
theorem spread_row128 (x : FVec Ideal S1x128 .f32) (p : Fin 4000) (j : Fin 128) :
    broadcastTo S4000x128 x broadcasts_S1x128_S4000x128 (ix2 p j) = x (ix2 0 j) :=
  broadcastTo_apply x broadcasts_S1x128_S4000x128 (ix2 p j) (ix2 0 j) (fun a => match a with
    | ⟨0, _⟩ => by show 0 = (if (1 : Nat) = 1 then 0 else p.val); rw [if_pos rfl]
    | ⟨1, _⟩ => by show j.val = (if (128 : Nat) = 1 then 0 else j.val); rw [if_neg (by decide)])

/-- A row [1, 3] spread along 4000 batch rows: entry (p, q) is the row's entry q. -/
theorem spread_row3 (x : FVec Ideal S1x3 .f32) (p : Fin 4000) (q : Fin 3) :
    broadcastTo S4000x3 x broadcasts_S1x3_S4000x3 (ix2 p q) = x (ix2 0 q) :=
  broadcastTo_apply x broadcasts_S1x3_S4000x3 (ix2 p q) (ix2 0 q) (fun a => match a with
    | ⟨0, _⟩ => by show 0 = (if (1 : Nat) = 1 then 0 else p.val); rw [if_pos rfl]
    | ⟨1, _⟩ => by show q.val = (if (3 : Nat) = 1 then 0 else q.val); rw [if_neg (by decide)])

/-! ## The body's three layers as vector operations -/

/-- The first layer before its activation, on whole blocks. -/
def layer1 (F1 : FVec Ideal S4000x128 .f32) (Wf : FVec Ideal S128x128 .f32) (C1 : FVec Ideal S4000x3 .f32)
    (Wc : FVec Ideal S3x128 .f32) (T1 : FVec Ideal S4000x1 .f32) (Wt B1 : FVec Ideal S1x128 .f32) :
    FVec Ideal S4000x128 .f32 :=
  addf (addf (addf (matmul dot_S4000x128_S128x128_S4000x128_1_0_0_1_n_n none F1 Wf (constant S4000x128 .f32 0x00000000#32))
      (matmul dot_S4000x3_S3x128_S4000x128_1_0_0_1_n_n none C1 Wc (constant S4000x128 .f32 0x00000000#32)))
    (mulf (broadcastTo S4000x128 T1 broadcasts_S4000x1_S4000x128) (broadcastTo S4000x128 Wt broadcasts_S1x128_S4000x128)))
    (broadcastTo S4000x128 B1 broadcasts_S1x128_S4000x128)

/-- The activation on a whole block. -/
def act (v : FVec Ideal S4000x128 .f32) : FVec Ideal S4000x128 .f32 := mulf v (logistic v)

/-- The second layer before its activation, on whole blocks. -/
def layer2 (h : FVec Ideal S4000x128 .f32) (W : FVec Ideal S128x128 .f32) (B : FVec Ideal S1x128 .f32) :
    FVec Ideal S4000x128 .f32 :=
  addf (matmul dot_S4000x128_S128x128_S4000x128_1_0_0_1_n_n none h W (constant S4000x128 .f32 0x00000000#32))
    (broadcastTo S4000x128 B broadcasts_S1x128_S4000x128)

/-- The output layer without its bias, on whole blocks. -/
def layer3 (h : FVec Ideal S4000x128 .f32) (W : FVec Ideal S128x3 .f32) : FVec Ideal S4000x3 .f32 :=
  matmul dot_S4000x128_S128x3_S4000x3_1_0_0_1_n_n none h W (constant S4000x3 .f32 0x00000000#32)

/-- The body's computed value before the last bias is the three layers composed (its shape casts are
    casts of a shape to itself). -/
theorem pay2_layers (P0 : FVec Ideal S4000x128 .f32) (P1 : FVec Ideal S128x128 .f32) (P2 : FVec Ideal S4000x3 .f32)
    (P3 : FVec Ideal S3x128 .f32) (P4 : FVec Ideal S4000x1 .f32) (P5 P6 : FVec Ideal S1x128 .f32)
    (P7 : FVec Ideal S128x128 .f32) (P8 : FVec Ideal S1x128 .f32) (P9 : FVec Ideal S128x3 .f32) :
    k0_pay2 (F := Ideal) P0 P1 P2 P3 P4 P5 P6 P7 P8 P9
      = layer3 (act (layer2 (act (layer1 P0 P1 P2 P3 P4 P5 P6)) P7 P8)) P9 := by
  unfold k0_pay2 layer3 act layer2 layer1
  simp only [shapeCast_self]

/-! ## The layers at an entry -/

theorem layer1_at (F1 : FVec Ideal S4000x128 .f32) (Wf : FVec Ideal S128x128 .f32) (C1 : FVec Ideal S4000x3 .f32)
    (Wc : FVec Ideal S3x128 .f32) (T1 : FVec Ideal S4000x1 .f32) (Wt B1 : FVec Ideal S1x128 .f32)
    (p : Fin 4000) (j : Fin 128) :
    layer1 F1 Wf C1 Wc T1 Wt B1 (ix2 p j)
      = rowPre1 (fun k => F1 (ix2 p k)) (fun k => C1 (ix2 p k)) (T1 (ix2 p 0)) (fun k j => Wf (ix2 k j))
          (fun k j => Wc (ix2 k j)) (fun j => Wt (ix2 0 j)) (fun j => B1 (ix2 0 j)) j := by
  have m1 := Cert.Fold.matmul_zero_rows dot_S4000x128_S128x128_S4000x128_1_0_0_1_n_n rfl rfl rfl rfl rfl rfl none F1 Wf p j
  have m2 := Cert.Fold.matmul_zero_rows dot_S4000x3_S3x128_S4000x128_1_0_0_1_n_n rfl rfl rfl rfl rfl rfl none C1 Wc p j
  unfold layer1 rowPre1
  show (matmul dot_S4000x128_S128x128_S4000x128_1_0_0_1_n_n none F1 Wf (constant S4000x128 .f32 0x00000000#32) (ix2 p j)
      + matmul dot_S4000x3_S3x128_S4000x128_1_0_0_1_n_n none C1 Wc (constant S4000x128 .f32 0x00000000#32) (ix2 p j)
      + broadcastTo S4000x128 T1 broadcasts_S4000x1_S4000x128 (ix2 p j) * broadcastTo S4000x128 Wt broadcasts_S1x128_S4000x128 (ix2 p j))
      + broadcastTo S4000x128 B1 broadcasts_S1x128_S4000x128 (ix2 p j) = _
  rw [m1, m2, spread_col, spread_row128, spread_row128]

theorem act_at (v : FVec Ideal S4000x128 .f32) (i : S4000x128.Idx) : act v i = silu (v i) := rfl

theorem layer2_at (h : FVec Ideal S4000x128 .f32) (W : FVec Ideal S128x128 .f32) (B : FVec Ideal S1x128 .f32)
    (g : Fin 128 → EReal) (p : Fin 4000) (hg : ∀ k, h (ix2 p k) = silu (g k)) (j : Fin 128) :
    layer2 h W B (ix2 p j) = rowNext g (fun k j => W (ix2 k j)) (fun j => B (ix2 0 j)) j := by
  have m1 := Cert.Fold.matmul_zero_rows dot_S4000x128_S128x128_S4000x128_1_0_0_1_n_n rfl rfl rfl rfl rfl rfl none h W p j
  unfold layer2 rowNext
  show matmul dot_S4000x128_S128x128_S4000x128_1_0_0_1_n_n none h W (constant S4000x128 .f32 0x00000000#32) (ix2 p j)
      + broadcastTo S4000x128 B broadcasts_S1x128_S4000x128 (ix2 p j) = _
  rw [m1, spread_row128]
  simp only [hg]

theorem layer3_at (h : FVec Ideal S4000x128 .f32) (W : FVec Ideal S128x3 .f32)
    (g : Fin 128 → EReal) (p : Fin 4000) (hg : ∀ k, h (ix2 p k) = silu (g k)) (q : Fin 3) :
    layer3 h W (ix2 p q) = ∑ k : Fin 128, silu (g k) * W (ix2 k q) := by
  have m1 := Cert.Fold.matmul_zero_rows dot_S4000x128_S128x3_S4000x3_1_0_0_1_n_n rfl rfl rfl rfl rfl rfl none h W p q
  unfold layer3
  rw [m1]
  simp only [hg]

/-! ## The stored block at an entry -/

/-- Entry (p, q) of the block the body stores, as the network's row function of row p of the input blocks. -/
theorem block_entry (P0 : FVec Ideal S4000x128 .f32) (P1 : FVec Ideal S128x128 .f32) (P2 : FVec Ideal S4000x3 .f32)
    (P3 : FVec Ideal S3x128 .f32) (P4 : FVec Ideal S4000x1 .f32) (P5 P6 : FVec Ideal S1x128 .f32)
    (P7 : FVec Ideal S128x128 .f32) (P8 : FVec Ideal S1x128 .f32) (P9 : FVec Ideal S128x3 .f32)
    (P10 : FVec Ideal S1x3 .f32) (p : Fin 4000) (q : Fin 3) :
    k0_pay1 (F := Ideal) (k0_pay2 (F := Ideal) P0 P1 P2 P3 P4 P5 P6 P7 P8 P9) P10 (ix2 p q)
      = rowNext
          (rowNext
            (rowPre1 (fun k => P0 (ix2 p k)) (fun k => P2 (ix2 p k)) (P4 (ix2 p 0)) (fun k j => P1 (ix2 k j))
              (fun k j => P3 (ix2 k j)) (fun j => P5 (ix2 0 j)) (fun j => P6 (ix2 0 j)))
            (fun k j => P7 (ix2 k j)) (fun j => P8 (ix2 0 j)))
          (fun k q => P9 (ix2 k q)) (fun q => P10 (ix2 0 q)) q := by
  have h1 : ∀ k : Fin 128, act (layer1 P0 P1 P2 P3 P4 P5 P6) (ix2 p k)
      = silu (rowPre1 (fun k => P0 (ix2 p k)) (fun k => P2 (ix2 p k)) (P4 (ix2 p 0)) (fun k j => P1 (ix2 k j))
          (fun k j => P3 (ix2 k j)) (fun j => P5 (ix2 0 j)) (fun j => P6 (ix2 0 j)) k) := fun k => by
    rw [act_at, layer1_at]
  have h2 : ∀ k : Fin 128, act (layer2 (act (layer1 P0 P1 P2 P3 P4 P5 P6)) P7 P8) (ix2 p k)
      = silu (rowNext
          (rowPre1 (fun k => P0 (ix2 p k)) (fun k => P2 (ix2 p k)) (P4 (ix2 p 0)) (fun k j => P1 (ix2 k j))
            (fun k j => P3 (ix2 k j)) (fun j => P5 (ix2 0 j)) (fun j => P6 (ix2 0 j)))
          (fun k j => P7 (ix2 k j)) (fun j => P8 (ix2 0 j)) k) := fun k => by
    rw [act_at, layer2_at (act (layer1 P0 P1 P2 P3 P4 P5 P6)) P7 P8 _ p h1 k]
  rw [pay2_layers]
  unfold k0_pay1
  simp only [shapeCast_self]
  show layer3 _ P9 (ix2 p q) + broadcastTo S4000x3 P10 broadcasts_S1x3_S4000x3 (ix2 p q) = _
  rw [spread_row3, layer3_at _ P9 _ p h2 q]
  rfl

end Cert.KernelIdeal.RowValue

end
-- ==== Proof.KernelIsNet.lean ====
/-
  The kernel computes the network.

  The grid has 25 points; point t works on batch rows 4000 t … 4000 t + 3999 of c, f and t and writes the same
  rows of the result, and it is handed the eight weight and bias arrays whole.  Those eight arrays are
  written by the host before the launch: the three column groups of W1 sliced out and transposed, W2 and W3
  transposed, the three biases reshaped to one row.  So row p of point t's stored block is the network's
  row 4000 t + p, and since the 25 blocks tile the 100000 rows the result array is the network everywhere.
-/
import proofs.«173107_g63050119905556_cont_9to1c4b_27_3_alg».proof.Proof.KernelRow
import Idealize.ShloMosaic.Lib.StableHlo.Run

noncomputable section

namespace Cert.KernelIdeal.NetValue

open Cert.KernelIdeal Cert.KernelIdeal.Gen Cert.KernelIdeal.Value Cert.KernelIdeal.RowValue Cert.RowNet
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The argument arrays of core c, as plain arrays -/

abbrev aC (c : Dev nD) : Arr2 100000 3 := m ((c : Thread nD τ).loc main_arg0)
abbrev aF (c : Dev nD) : Arr2 100000 128 := m ((c : Thread nD τ).loc main_arg1)
abbrev aT (c : Dev nD) : Arr2 100000 1 := m ((c : Thread nD τ).loc main_arg2)
abbrev aW1 (c : Dev nD) : Arr2 128 132 := m ((c : Thread nD τ).loc main_arg3)
abbrev aB1 (c : Dev nD) : Arr1 128 := m ((c : Thread nD τ).loc main_arg4)
abbrev aW2 (c : Dev nD) : Arr2 128 128 := m ((c : Thread nD τ).loc main_arg5)
abbrev aB2 (c : Dev nD) : Arr1 128 := m ((c : Thread nD τ).loc main_arg6)
abbrev aW3 (c : Dev nD) : Arr2 3 128 := m ((c : Thread nD τ).loc main_arg7)
abbrev aB3 (c : Dev nD) : Arr1 3 := m ((c : Thread nD τ).loc main_arg8)

/-! ## The index maps, decided over the 25 grid points -/

/-- The three batch inputs and the output move one block of 4000 rows per grid point. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 2) = t.val ∧ win0_11.index t (1 : Fin 2) = 0 :=
  (by decide +kernel : ∀ t : Fin grid0.N, _)

/-- The weights and biases stay at block (0, 0). -/
theorem idx_fixed : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The batch inputs' blocks are rows of the arguments -/

theorem rows_c (c : Dev nD) (t : Fin cfg0.N) (p : Fin 4000) (k : Fin 3) (ht : 4000 * t.val + p.val < 100000) :
    (iblk m c 0 t : FVec Ideal S4000x3 .f32) (ix2 p k) = aC m c (ix2 ⟨4000 * t.val + p.val, ht⟩ k) := by
  obtain ⟨e0, e1, -⟩ := idx_rows t
  unfold iblk
  rw [View.read_apply]
  show V m c main_arg0 _ = _
  rw [V_main_arg0]
  refine congrArg (aC m c) (funext fun a => Fin.ext ?_)
  match a with
  | ⟨0, _⟩ => show win0_0.index t 0 * 4000 + 1 * p.val = 4000 * t.val + p.val; rw [e0]; omega
  | ⟨1, _⟩ => show win0_0.index t 1 * 3 + 1 * k.val = k.val; rw [e1]; omega

theorem rows_f (c : Dev nD) (t : Fin cfg0.N) (p : Fin 4000) (k : Fin 128) (ht : 4000 * t.val + p.val < 100000) :
    (iblk m c 1 t : FVec Ideal S4000x128 .f32) (ix2 p k) = aF m c (ix2 ⟨4000 * t.val + p.val, ht⟩ k) := by
  obtain ⟨-, -, e0, e1, -⟩ := idx_rows t
  unfold iblk
  rw [View.read_apply]
  show V m c main_arg1 _ = _
  rw [V_main_arg1]
  refine congrArg (aF m c) (funext fun a => Fin.ext ?_)
  match a with
  | ⟨0, _⟩ => show win0_1.index t 0 * 4000 + 1 * p.val = 4000 * t.val + p.val; rw [e0]; omega
  | ⟨1, _⟩ => show win0_1.index t 1 * 128 + 1 * k.val = k.val; rw [e1]; omega

theorem rows_t (c : Dev nD) (t : Fin cfg0.N) (p : Fin 4000) (ht : 4000 * t.val + p.val < 100000) :
    (iblk m c 2 t : FVec Ideal S4000x1 .f32) (ix2 p 0) = aT m c (ix2 ⟨4000 * t.val + p.val, ht⟩ 0) := by
  obtain ⟨-, -, -, -, e0, e1, -⟩ := idx_rows t
  unfold iblk
  rw [View.read_apply]
  show V m c main_arg2 _ = _
  rw [V_main_arg2]
  refine congrArg (aT m c) (funext fun a => Fin.ext ?_)
  match a with
  | ⟨0, _⟩ => show win0_2.index t 0 * 4000 + 1 * p.val = 4000 * t.val + p.val; rw [e0]; omega
  | ⟨1, _⟩ => show win0_2.index t 1 * 1 + 1 * 0 = 0; rw [e1]

/-! ## The weights' and biases' blocks are the whole arrays the host wrote -/

theorem whole_wc (c : Dev nD) (t : Fin cfg0.N) (y : S3x128.Idx) :
    (iblk m c 3 t : FVec Ideal S3x128 .f32) y = (V m c main_call0_v1 : S3x128.Idx → EReal) y := by
  obtain ⟨e0, e1, -⟩ := idx_fixed t
  unfold iblk
  rw [View.read_apply]
  show V m c main_call0_v1 _ = V m c main_call0_v1 _
  refine congrArg (V m c main_call0_v1) (funext fun a => Fin.ext ?_)
  match a with
  | ⟨0, _⟩ => show win0_3.index t 0 * 3 + 1 * (y 0).val = (y 0).val; rw [e0]; omega
  | ⟨1, _⟩ => show win0_3.index t 1 * 128 + 1 * (y 1).val = (y 1).val; rw [e1]; omega

theorem whole_wf (c : Dev nD) (t : Fin cfg0.N) (y : S128x128.Idx) :
    (iblk m c 4 t : FVec Ideal S128x128 .f32) y = (V m c main_call0_v3 : S128x128.Idx → EReal) y := by
  obtain ⟨-, -, e0, e1, -⟩ := idx_fixed t
  unfold iblk
  rw [View.read_apply]
  show V m c main_call0_v3 _ = V m c main_call0_v3 _
  refine congrArg (V m c main_call0_v3) (funext fun a => Fin.ext ?_)
  match a with
  | ⟨0, _⟩ => show win0_4.index t 0 * 128 + 1 * (y 0).val = (y 0).val; rw [e0]; omega
  | ⟨1, _⟩ => show win0_4.index t 1 * 128 + 1 * (y 1).val = (y 1).val; rw [e1]; omega

theorem whole_wt (c : Dev nD) (t : Fin cfg0.N) (y : S1x128.Idx) :
    (iblk m c 5 t : FVec Ideal S1x128 .f32) y = (V m c main_call0_v5 : S1x128.Idx → EReal) y := by
  obtain ⟨-, -, -, -, e0, e1, -⟩ := idx_fixed t
  unfold iblk
  rw [View.read_apply]
  show V m c main_call0_v5 _ = V m c main_call0_v5 _
  refine congrArg (V m c main_call0_v5) (funext fun a => Fin.ext ?_)
  match a with
  | ⟨0, _⟩ => show win0_5.index t 0 * 1 + 1 * (y 0).val = (y 0).val; rw [e0]; omega
  | ⟨1, _⟩ => show win0_5.index t 1 * 128 + 1 * (y 1).val = (y 1).val; rw [e1]; omega

theorem whole_b1 (c : Dev nD) (t : Fin cfg0.N) (y : S1x128.Idx) :
    (iblk m c 6 t : FVec Ideal S1x128 .f32) y = (V m c main_call0_v8 : S1x128.Idx → EReal) y := by
  obtain ⟨-, -, -, -, -, -, e0, e1, -⟩ := idx_fixed t
  unfold iblk
  rw [View.read_apply]
  show V m c main_call0_v8 _ = V m c main_call0_v8 _
  refine congrArg (V m c main_call0_v8) (funext fun a => Fin.ext ?_)
  match a with
  | ⟨0, _⟩ => show win0_6.index t 0 * 1 + 1 * (y 0).val = (y 0).val; rw [e0]; omega
  | ⟨1, _⟩ => show win0_6.index t 1 * 128 + 1 * (y 1).val = (y 1).val; rw [e1]; omega

theorem whole_w2 (c : Dev nD) (t : Fin cfg0.N) (y : S128x128.Idx) :
    (iblk m c 7 t : FVec Ideal S128x128 .f32) y = (V m c main_call0_v6 : S128x128.Idx → EReal) y := by
  obtain ⟨-, -, -, -, -, -, -, -, e0, e1, -⟩ := idx_fixed t
  unfold iblk
  rw [View.read_apply]
  show V m c main_call0_v6 _ = V m c main_call0_v6 _
  refine congrArg (V m c main_call0_v6) (funext fun a => Fin.ext ?_)
  match a with
  | ⟨0, _⟩ => show win0_7.index t 0 * 128 + 1 * (y 0).val = (y 0).val; rw [e0]; omega
  | ⟨1, _⟩ => show win0_7.index t 1 * 128 + 1 * (y 1).val = (y 1).val; rw [e1]; omega

theorem whole_b2 (c : Dev nD) (t : Fin cfg0.N) (y : S1x128.Idx) :
    (iblk m c 8 t : FVec Ideal S1x128 .f32) y = (V m c main_call0_v9 : S1x128.Idx → EReal) y := by
  obtain ⟨-, -, -, -, -, -, -, -, -, -, e0, e1, -⟩ := idx_fixed t
  unfold iblk
  rw [View.read_apply]
  show V m c main_call0_v9 _ = V m c main_call0_v9 _
  refine congrArg (V m c main_call0_v9) (funext fun a => Fin.ext ?_)
  match a with
  | ⟨0, _⟩ => show win0_8.index t 0 * 1 + 1 * (y 0).val = (y 0).val; rw [e0]; omega
  | ⟨1, _⟩ => show win0_8.index t 1 * 128 + 1 * (y 1).val = (y 1).val; rw [e1]; omega

theorem whole_w3 (c : Dev nD) (t : Fin cfg0.N) (y : S128x3.Idx) :
    (iblk m c 9 t : FVec Ideal S128x3 .f32) y = (V m c main_call0_v7 : S128x3.Idx → EReal) y := by
  obtain ⟨-, -, -, -, -, -, -, -, -, -, -, -, e0, e1, -⟩ := idx_fixed t
  unfold iblk
  rw [View.read_apply]
  show V m c main_call0_v7 _ = V m c main_call0_v7 _
  refine congrArg (V m c main_call0_v7) (funext fun a => Fin.ext ?_)
  match a with
  | ⟨0, _⟩ => show win0_9.index t 0 * 128 + 1 * (y 0).val = (y 0).val; rw [e0]; omega
  | ⟨1, _⟩ => show win0_9.index t 1 * 3 + 1 * (y 1).val = (y 1).val; rw [e1]; omega

theorem whole_b3 (c : Dev nD) (t : Fin cfg0.N) (y : S1x3.Idx) :
    (iblk m c 10 t : FVec Ideal S1x3 .f32) y = (V m c main_call0_v10 : S1x3.Idx → EReal) y := by
  obtain ⟨-, -, -, -, -, -, -, -, -, -, -, -, -, -, e0, e1⟩ := idx_fixed t
  unfold iblk
  rw [View.read_apply]
  show V m c main_call0_v10 _ = V m c main_call0_v10 _
  refine congrArg (V m c main_call0_v10) (funext fun a => Fin.ext ?_)
  match a with
  | ⟨0, _⟩ => show win0_10.index t 0 * 1 + 1 * (y 0).val = (y 0).val; rw [e0]; omega
  | ⟨1, _⟩ => show win0_10.index t 1 * 3 + 1 * (y 1).val = (y 1).val; rw [e1]; omega

/-! ## What the host wrote before the launch, read at an entry -/

/-- Columns 0 … 2 of W1, transposed: entry (k, j) is W1[j, k]. -/
theorem wc_at (c : Dev nD) (k : Fin 3) (j : Fin 128) :
    (V m c main_call0_v1 : S3x128.Idx → EReal) (ix2 k j) = aW1 m c (ix2 j ⟨k.val, by omega⟩) := by
  have e : (V m c main_call0_v1 : S3x128.Idx → EReal)
      = transpose S3x128 [1, 0] (extractStridedSlice S128x3 ![0, 0] (aW1 m c) slices_S128x132_S128x3_0_0) transposes_S128x3_S3x128_1_0 := by
    dsimp only [Gen.V, Gen.hostOps0]; after_results; rfl
  rw [e]
  exact (transpose_apply [1, 0] _ transposes_S128x3_S3x128_1_0 (ix2 k j) (ix2 j k) (fun b => match b with
      | ⟨0, _⟩ => rfl
      | ⟨1, _⟩ => rfl)).trans
    (extractStridedSlice_apply ![0, 0] _ slices_S128x132_S128x3_0_0 (ix2 j k) (ix2 j ⟨k.val, by omega⟩) (fun a => match a with
      | ⟨0, _⟩ => by show j.val = 0 + j.val; omega
      | ⟨1, _⟩ => by show k.val = 0 + k.val; omega))

/-- Columns 3 … 130 of W1, transposed: entry (k, j) is W1[j, 3 + k]. -/
theorem wf_at (c : Dev nD) (k : Fin 128) (j : Fin 128) :
    (V m c main_call0_v3 : S128x128.Idx → EReal) (ix2 k j) = aW1 m c (ix2 j ⟨3 + k.val, by omega⟩) := by
  have e : (V m c main_call0_v3 : S128x128.Idx → EReal)
      = transpose S128x128 [1, 0] (extractStridedSlice S128x128 ![0, 3] (aW1 m c) slices_S128x132_S128x128_0_3) transposes_S128x128_S128x128_1_0 := by
    dsimp only [Gen.V, Gen.hostOps0]; after_results; rfl
  rw [e]
  exact (transpose_apply [1, 0] _ transposes_S128x128_S128x128_1_0 (ix2 k j) (ix2 j k) (fun b => match b with
      | ⟨0, _⟩ => rfl
      | ⟨1, _⟩ => rfl)).trans
    (extractStridedSlice_apply ![0, 3] _ slices_S128x132_S128x128_0_3 (ix2 j k) (ix2 j ⟨3 + k.val, by omega⟩) (fun a => match a with
      | ⟨0, _⟩ => by show j.val = 0 + j.val; omega
      | ⟨1, _⟩ => by show 3 + k.val = 3 + k.val; rfl))

/-- Column 131 of W1, transposed: entry (0, j) is W1[j, 131]. -/
theorem wt_at (c : Dev nD) (j : Fin 128) :
    (V m c main_call0_v5 : S1x128.Idx → EReal) (ix2 0 j) = aW1 m c (ix2 j ⟨131, by omega⟩) := by
  have e : (V m c main_call0_v5 : S1x128.Idx → EReal)
      = transpose S1x128 [1, 0] (extractStridedSlice S128x1 ![0, 131] (aW1 m c) slices_S128x132_S128x1_0_131) transposes_S128x1_S1x128_1_0 := by
    dsimp only [Gen.V, Gen.hostOps0]; after_results; rfl
  rw [e]
  exact (transpose_apply [1, 0] _ transposes_S128x1_S1x128_1_0 (ix2 0 j) (ix2 j 0) (fun b => match b with
      | ⟨0, _⟩ => rfl
      | ⟨1, _⟩ => rfl)).trans
    (extractStridedSlice_apply ![0, 131] _ slices_S128x132_S128x1_0_131 (ix2 j 0) (ix2 j ⟨131, by omega⟩) (fun a => match a with
      | ⟨0, _⟩ => by show j.val = 0 + j.val; omega
      | ⟨1, _⟩ => by show 131 = 131 + 0; rfl))

/-- W2 transposed: entry (k, j) is W2[j, k]. -/
theorem w2_at (c : Dev nD) (k : Fin 128) (j : Fin 128) :
    (V m c main_call0_v6 : S128x128.Idx → EReal) (ix2 k j) = aW2 m c (ix2 j k) := by
  have e : (V m c main_call0_v6 : S128x128.Idx → EReal)
      = transpose S128x128 [1, 0] (aW2 m c) transposes_S128x128_S128x128_1_0 := by
    dsimp only [Gen.V, Gen.hostOps0]; after_results; rfl
  rw [e]
  exact transpose_apply [1, 0] _ transposes_S128x128_S128x128_1_0 (ix2 k j) (ix2 j k) (fun b => match b with
      | ⟨0, _⟩ => rfl
      | ⟨1, _⟩ => rfl)

/-- W3 transposed: entry (k, q) is W3[q, k]. -/
theorem w3_at (c : Dev nD) (k : Fin 128) (q : Fin 3) :
    (V m c main_call0_v7 : S128x3.Idx → EReal) (ix2 k q) = aW3 m c (ix2 q k) := by
  have e : (V m c main_call0_v7 : S128x3.Idx → EReal)
      = transpose S128x3 [1, 0] (aW3 m c) transposes_S3x128_S128x3_1_0 := by
    dsimp only [Gen.V, Gen.hostOps0]; after_results; rfl
  rw [e]
  exact transpose_apply [1, 0] _ transposes_S3x128_S128x3_1_0 (ix2 k q) (ix2 q k) (fun b => match b with
      | ⟨0, _⟩ => rfl
      | ⟨1, _⟩ => rfl)

/-- b1 as one row: entry (0, j) is b1[j]. -/
theorem b1_at (c : Dev nD) (j : Fin 128) :
    (V m c main_call0_v8 : S1x128.Idx → EReal) (ix2 0 j) = aB1 m c (ix1 j) := by
  have e : (V m c main_call0_v8 : S1x128.Idx → EReal) = shapeCast S1x128 (aB1 m c) shapeCasts_S128_S1x128 := by
    dsimp only [Gen.V, Gen.hostOps0]; after_results; rfl
  rw [e]
  refine shapeCast_apply _ shapeCasts_S128_S1x128 (ix2 0 j) (ix1 j) ?_
  rw [Shape.rowMajor_val_one, Shape.rowMajor_val_two]
  show j.val = 0 * 128 + j.val
  omega

/-- b2 as one row: entry (0, j) is b2[j]. -/
theorem b2_at (c : Dev nD) (j : Fin 128) :
    (V m c main_call0_v9 : S1x128.Idx → EReal) (ix2 0 j) = aB2 m c (ix1 j) := by
  have e : (V m c main_call0_v9 : S1x128.Idx → EReal) = shapeCast S1x128 (aB2 m c) shapeCasts_S128_S1x128 := by
    dsimp only [Gen.V, Gen.hostOps0]; after_results; rfl
  rw [e]
  refine shapeCast_apply _ shapeCasts_S128_S1x128 (ix2 0 j) (ix1 j) ?_
  rw [Shape.rowMajor_val_one, Shape.rowMajor_val_two]
  show j.val = 0 * 128 + j.val
  omega

/-- b3 as one row: entry (0, q) is b3[q]. -/
theorem b3_at (c : Dev nD) (q : Fin 3) :
    (V m c main_call0_v10 : S1x3.Idx → EReal) (ix2 0 q) = aB3 m c (ix1 q) := by
  have e : (V m c main_call0_v10 : S1x3.Idx → EReal) = shapeCast S1x3 (aB3 m c) shapeCasts_S3_S1x3 := by
    dsimp only [Gen.V, Gen.hostOps0]; after_results; rfl
  rw [e]
  refine shapeCast_apply _ shapeCasts_S3_S1x3 (ix2 0 q) (ix1 q) ?_
  rw [Shape.rowMajor_val_one, Shape.rowMajor_val_two]
  show q.val = 0 * 3 + q.val
  omega

/-! ## One stored entry is one entry of the network -/

/-- The network of core c's argument arrays. -/
abbrev netOf (c : Dev nD) : Arr2 100000 3 :=
  net (aC m c) (aF m c) (aT m c) (aW1 m c) (aB1 m c) (aW2 m c) (aB2 m c) (aW3 m c) (aB3 m c)

/-- Entry (p, q) of what point t stores is the network at row 4000 t + p. -/
theorem point_entry (c : Dev nD) (t : Fin cfg0.N) (p : Fin 4000) (q : Fin 3) (ht : 4000 * t.val + p.val < 100000) :
    k0_pay1 (F := Ideal)
        (k0_pay2 (F := Ideal) (iblk m c 1 t) (iblk m c 4 t) (iblk m c 0 t) (iblk m c 3 t) (iblk m c 2 t) (iblk m c 5 t)
          (iblk m c 6 t) (iblk m c 7 t) (iblk m c 8 t) (iblk m c 9 t))
        (iblk m c 10 t) (ix2 p q)
      = netOf m c (ix2 ⟨4000 * t.val + p.val, ht⟩ q) := by
  refine (block_entry (iblk m c 1 t) (iblk m c 4 t) (iblk m c 0 t) (iblk m c 3 t) (iblk m c 2 t) (iblk m c 5 t)
    (iblk m c 6 t) (iblk m c 7 t) (iblk m c 8 t) (iblk m c 9 t) (iblk m c 10 t) p q).trans ?_
  have hF : (fun k : Fin 128 => (iblk m c 1 t : FVec Ideal S4000x128 .f32) (ix2 p k))
      = fun k => aF m c (ix2 ⟨4000 * t.val + p.val, ht⟩ k) := funext fun k => rows_f m c t p k ht
  have hC : (fun k : Fin 3 => (iblk m c 0 t : FVec Ideal S4000x3 .f32) (ix2 p k))
      = fun k => aC m c (ix2 ⟨4000 * t.val + p.val, ht⟩ k) := funext fun k => rows_c m c t p k ht
  have hT : (iblk m c 2 t : FVec Ideal S4000x1 .f32) (ix2 p 0) = aT m c (ix2 ⟨4000 * t.val + p.val, ht⟩ 0) :=
    rows_t m c t p ht
  have hWf : (fun (k : Fin 128) (j : Fin 128) => (iblk m c 4 t : FVec Ideal S128x128 .f32) (ix2 k j))
      = fun k j => aW1 m c (ix2 j ⟨3 + k.val, by omega⟩) :=
    funext fun k => funext fun j => (whole_wf m c t (ix2 k j)).trans (wf_at m c k j)
  have hWc : (fun (k : Fin 3) (j : Fin 128) => (iblk m c 3 t : FVec Ideal S3x128 .f32) (ix2 k j))
      = fun k j => aW1 m c (ix2 j ⟨k.val, by omega⟩) :=
    funext fun k => funext fun j => (whole_wc m c t (ix2 k j)).trans (wc_at m c k j)
  have hWt : (fun j : Fin 128 => (iblk m c 5 t : FVec Ideal S1x128 .f32) (ix2 0 j))
      = fun j => aW1 m c (ix2 j ⟨131, by omega⟩) :=
    funext fun j => (whole_wt m c t (ix2 0 j)).trans (wt_at m c j)
  have hB1 : (fun j : Fin 128 => (iblk m c 6 t : FVec Ideal S1x128 .f32) (ix2 0 j)) = fun j => aB1 m c (ix1 j) :=
    funext fun j => (whole_b1 m c t (ix2 0 j)).trans (b1_at m c j)
  have hW2 : (fun (k : Fin 128) (j : Fin 128) => (iblk m c 7 t : FVec Ideal S128x128 .f32) (ix2 k j))
      = fun k j => aW2 m c (ix2 j k) :=
    funext fun k => funext fun j => (whole_w2 m c t (ix2 k j)).trans (w2_at m c k j)
  have hB2 : (fun j : Fin 128 => (iblk m c 8 t : FVec Ideal S1x128 .f32) (ix2 0 j)) = fun j => aB2 m c (ix1 j) :=
    funext fun j => (whole_b2 m c t (ix2 0 j)).trans (b2_at m c j)
  have hW3 : (fun (k : Fin 128) (q : Fin 3) => (iblk m c 9 t : FVec Ideal S128x3 .f32) (ix2 k q))
      = fun k q => aW3 m c (ix2 q k) :=
    funext fun k => funext fun q => (whole_w3 m c t (ix2 k q)).trans (w3_at m c k q)
  have hB3 : (fun q : Fin 3 => (iblk m c 10 t : FVec Ideal S1x3 .f32) (ix2 0 q)) = fun q => aB3 m c (ix1 q) :=
    funext fun q => (whole_b3 m c t (ix2 0 q)).trans (b3_at m c q)
  exact (rowNet_congr hF hC hT hWf hWc hWt hB1 hW2 hB2 hW3 hB3 q).trans
    (net_at (aC m c) (aF m c) (aT m c) (aW1 m c) (aB1 m c) (aW2 m c) (aB2 m c) (aW3 m c) (aB3 m c)
      ⟨4000 * t.val + p.val, ht⟩ q).symm

end Cert.KernelIdeal.NetValue

end
-- ==== Proof.KernelResult.lean ====
/-
  The kernel's run ends with the network in its result array.

  Point t writes back block t of its array, rows 4000 t … 4000 t + 3999, and every stored entry is the
  network's entry at that row (point_entry).  Row r of the array lies in the block of point r / 4000, so the 25
  blocks cover the array and the array after the run is the network of the argument arrays.
-/
import proofs.«173107_g63050119905556_cont_9to1c4b_27_3_alg».proof.Proof.KernelIsNet

noncomputable section

namespace Cert.KernelIdeal.NetValue

open Cert.KernelIdeal Cert.KernelIdeal.Gen Cert.KernelIdeal.Value Cert.KernelIdeal.RowValue Cert.RowNet
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- What point t writes back is block t of the network. -/
theorem flushed_eq (c : Dev nD) (t : Fin cfg0.N) :
    (dats m 0 c).flushed 11 t = ((cfg0.win 11).blk t).view.read (Elt Ideal) (netOf m c) := by
  rw [flushed11]
  unfold out0_11
  rw [View.canon_unit_zero hz]
  simp only [View.ld_unit_zero (S := S4000x128) hz, View.ld_unit_zero (S := S128x128) hz,
    View.ld_unit_zero (S := S4000x3) hz, View.ld_unit_zero (S := S3x128) hz, View.ld_unit_zero (S := S4000x1) hz,
    View.ld_unit_zero (S := S1x128) hz, View.ld_unit_zero (S := S128x3) hz, View.ld_unit_zero (S := S1x3) hz]
  have hN : t.val < 25 := lt_of_lt_of_eq t.isLt (show cfg0.N = 25 from N_0)
  obtain ⟨-, -, -, -, -, -, e0, e1⟩ := idx_rows t
  funext y
  obtain ⟨p, q, rfl⟩ : ∃ (p : Fin 4000) (q : Fin 3), y = ix2 p q := ⟨y 0, y 1, eq_ix2 y⟩
  have ht : 4000 * t.val + p.val < 100000 := by
    have := p.isLt
    omega
  refine (point_entry m c t p q ht).trans ?_
  show netOf m c _ = netOf m c (((cfg0.win 11).blk t).view.emb (ix2 p q))
  refine congrArg (netOf m c) (funext fun a => Fin.ext ?_)
  match a with
  | ⟨0, _⟩ => show 4000 * t.val + p.val = win0_11.index t 0 * 4000 + 1 * p.val; rw [e0]; omega
  | ⟨1, _⟩ => show q.val = win0_11.index t 1 * 3 + 1 * q.val; rw [e1]; omega

/-- An index of the array is in point t's block iff each coordinate is in the block's range on its axis. -/
theorem mem_blk (t : Fin cfg0.N) (i : S100000x3.Idx) :
    i ∈ ((cfg0.win 11).blk t).view.set ↔ ∀ a : Fin 2, win0_11.index t a * S4000x3.size a ≤ (i a).val
      ∧ (i a).val < win0_11.index t a * S4000x3.size a + S4000x3.size a := by
  show i ∈ ((View.whole main_v0).slice (win0_11.rect t)).set ↔ _
  rw [View.set_slice_whole, Rect.mem_set_unit]
  exact Iff.rfl

/-- Every row of the array is in the block of some grid point: row r in that of point r / 4000. -/
theorem covered (i : S100000x3.Idx) :
    ∃ t : Fin cfg0.N, (cfg0.win 11).flush t = true ∧ i ∈ ((cfg0.win 11).blk t).view.set := by
  have hi0 : (i 0).val < 100000 := (i 0).isLt
  have hi1 : (i 1).val < 3 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e0, e1⟩ := idx_rows t
  refine ⟨t, flush0_11 t, ?_⟩
  rw [mem_blk]
  intro a
  match a with
  | ⟨0, _⟩ =>
    show win0_11.index t 0 * 4000 ≤ (i 0).val ∧ (i 0).val < win0_11.index t 0 * 4000 + 4000
    rw [e0, ht]
    omega
  | ⟨1, _⟩ =>
    show win0_11.index t 1 * 3 ≤ (i 1).val ∧ (i 1).val < win0_11.index t 1 * 3 + 3
    rw [e1]
    omega

/-- The result array after the run is the network of the argument arrays. -/
theorem result (c : Dev nD) : (dats m 0 c).arrAt 11 cfg0.N = netOf m c :=
  (dats m 0 c).arrAt_eq_of_cover 11 (netOf m c) (fun t _ => flushed_eq m c t) covered

/-- The kernel's run: it terminates with the network in the result array and the arguments unchanged. -/
theorem run : θ_run defs (onTc (τ := τ) (main (F := Ideal))) ⟨m, fun _ => 0, ρ⟩ fun r => ∀ c : Dev nD,
      r.2.mem ((c : Thread nD τ).loc main_v0) = netOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (result m c), (h c).2⟩) (run_blocks m ρ)

end Cert.KernelIdeal.NetValue

end
-- ==== Proof.lean ====
/-
  Kernel and reference compute one function.

  The program is a three-layer network applied to each of 100000 batch rows,
      y = W3 · silu (W2 · silu (W1 · [c, f, t] + b1) + b2) + b3,          silu x = x · (1 / (1 + e^(-x))).
  The reference joins c, f and t into rows of length 132 and multiplies by the transpose of W1.  The kernel never
  joins them: the host splits W1 by column groups, and each grid point, on its 4000 rows, adds the product of f
  with its 128 columns, the product of c with its 3 columns and t times its one column.  Over the extended reals
  the sum over the 132 joined columns is the three partial sums in any order, by commutativity and associativity of
  addition alone, so the finiteness of the inputs is never used; the logistic function the kernel applies is the
  quotient 1 / (1 + e^(-x)) the reference spells out; the remaining layers are the same sums on both sides.

  Proof/RowNet.lean states the network as one function of the nine argument arrays and proves the law for the
  first layer; Proof/RefIsNet.lean reads the reference's run as that function; Proof/KernelRow.lean reads one
  entry of the block the kernel body stores, Proof/KernelIsNet.lean the blocks and the arrays the host prepared,
  Proof/KernelResult.lean the result array after the kernel's run.  The frames of the two kernels are the
  generated ones; the reference's frame is its generated run with the result dropped; no operation was rewritten
  by the idealization, so there is nothing to preserve.
-/
import proofs.«173107_g63050119905556_cont_9to1c4b_27_3_alg».proof.Defs
import proofs.«173107_g63050119905556_cont_9to1c4b_27_3_alg».proof.Proof.Gen.Kernel
import proofs.«173107_g63050119905556_cont_9to1c4b_27_3_alg».proof.Proof.Gen.Kernel.Skeleton
import proofs.«173107_g63050119905556_cont_9to1c4b_27_3_alg».proof.Proof.Gen.Kernel.Launch
import proofs.«173107_g63050119905556_cont_9to1c4b_27_3_alg».proof.Proof.Gen.Kernel.Points
import proofs.«173107_g63050119905556_cont_9to1c4b_27_3_alg».proof.Proof.Gen.Kernel.Frame
import proofs.«173107_g63050119905556_cont_9to1c4b_27_3_alg».proof.Proof.Gen.KernelIdeal
import proofs.«173107_g63050119905556_cont_9to1c4b_27_3_alg».proof.Proof.Gen.KernelIdeal.Skeleton
import proofs.«173107_g63050119905556_cont_9to1c4b_27_3_alg».proof.Proof.Gen.KernelIdeal.Launch
import proofs.«173107_g63050119905556_cont_9to1c4b_27_3_alg».proof.Proof.Gen.KernelIdeal.Points
import proofs.«173107_g63050119905556_cont_9to1c4b_27_3_alg».proof.Proof.Gen.KernelIdeal.Frame
import proofs.«173107_g63050119905556_cont_9to1c4b_27_3_alg».proof.Proof.Gen.ReferenceIdeal
import proofs.«173107_g63050119905556_cont_9to1c4b_27_3_alg».proof.Proof.Gen.Pre_finite_inputs
import proofs.«173107_g63050119905556_cont_9to1c4b_27_3_alg».proof.Proof.Gen.KernelIdeal.Value
import proofs.«173107_g63050119905556_cont_9to1c4b_27_3_alg».proof.Proof.Gen.ReferenceIdeal.Run
import proofs.«173107_g63050119905556_cont_9to1c4b_27_3_alg».proof.Proof.Gen.ReferenceIdeal.Read
import proofs.«173107_g63050119905556_cont_9to1c4b_27_3_alg».proof.Proof.RefIsNet
import proofs.«173107_g63050119905556_cont_9to1c4b_27_3_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of their (equal) argument arrays in the result. -/
theorem algebraic : Cert.algebraic_KernelIdeal_ReferenceIdeal := by
  intro m ρ m' ρ' _ hagree
  refine ⟨fun c => Cert.KernelIdeal.NetValue.netOf m c, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v17_eq, h0, h1, h2, h3, h4, h5, h6, h7, h8]
  exact Cert.ReferenceIdeal.RefValue.ref_is_net _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
